-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S65536x1024 : Shape := ⟨2, ![65536, 1024]⟩
abbrev S1024 : Shape := ⟨1, ![1024]⟩
abbrev S1x1024 : Shape := ⟨2, ![1, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1x1024, .f32⟩
  | .hbm, ⟨3, _⟩ => ⟨S65536x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .f32⟩
  | .local _ .vmem, ⟨4, _⟩ => ⟨S2048x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024 : Shape := ⟨1, ![1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S65536x1024, .f32⟩
  | .hbm, ⟨5, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)

variable [Facts₀]

class Facts : Prop extends Facts₀ where

variable [Facts]
-- ==== Proof.Spec.lean ====
/-
  The function both programs compute, stated once over the argument arrays.

  The matrix `x` has 65536 rows and 1024 columns; `d` is a vector of length 1024. Scaling `x` on the right by
  the diagonal matrix whose diagonal is `|d|` multiplies column `q` of `x` by `|d q|`: entry `(r, q)` of the
  result is `x (r, q) * |d q|`. On the extended reals the absolute value is `max a (-a)`.
-/
import Idealize.ShloMosaic.PureOps.Ideal
import Idealize.ShloMosaic.Lib.ValueIdx

noncomputable section

namespace Cert.DiagScale

open Idealize.ShloMosaic Idealize.ShloMosaic.ValueIdx

/-- The shape of the matrix, of the vector, and of the vector laid out as one row. -/
abbrev SMat : Shape := ⟨2, ![65536, 1024]⟩
abbrev SVec : Shape := ⟨1, ![1024]⟩
abbrev SRow : Shape := ⟨2, ![1, 1024]⟩

/-- Column `q` of the matrix as an index of the vector. -/
abbrev col (i : SMat.Idx) : SVec.Idx := ix1 (n := 1024) (i 1)

/-- `x` with each column scaled by the absolute value of that column's entry of `d`:
    entry `(r, q)` is `x (r, q) * |d q|`. -/
def scaled (x : FVec Ideal SMat .f32) (d : FVec Ideal SVec .f32) : FVec Ideal SMat .f32 :=
  fun i => x i * max (d (col i)) (-(d (col i)))

/-- The scaled matrix read at an entry. -/
theorem scaled_apply (x : FVec Ideal SMat .f32) (d : FVec Ideal SVec .f32) (i : SMat.Idx) :
    scaled x d i = x i * max (d (col i)) (-(d (col i))) := rfl

/-- The absolute value of an extended real, as the float operation reads at the ideal instance. -/
theorem abs_eq (a : Ideal .f32) : FloatOps.absf a = max a (-a) := rfl

end Cert.DiagScale

end
-- ==== Proof.RefValue.lean ====
/-
  The reference, read entry by entry.

  The reference takes the absolute value of the vector `d`, lays it out as one row, repeats that row down all
  65536 rows, and multiplies the matrix `x` by the result entry by entry. Following an entry `(r, q)` back
  through the two broadcasts lands on entry `q` of the vector, so the product there is `x (r, q) * |d q|`:
  the specification's `scaled`. The host's absolute value and the vector unit's are one function on the
  extended reals, `max a (-a)`.
-/
import proofs.«428894_j26456998543635_3_alg».proof.Proof.Gen.ReferenceIdeal.Read
import proofs.«428894_j26456998543635_3_alg».proof.Proof.Spec

noncomputable section

namespace Cert.DiagScale.Ref

open Idealize.ShloMosaic Idealize.ShloMosaic.ValueIdx
open Cert.ReferenceIdeal Cert.ReferenceIdeal.Read

/-- The two broadcasts composed: entry `(r, q)` of the repeated matrix comes from entry `q` of the vector. -/
theorem col_of_broadcasts (i : S65536x1024.Idx) : idx_main_v1 (idx_main_v2 i) = col i :=
  funext fun a => Fin.ext (by match a with | ⟨0, _⟩ => rfl)

/-- The reference's result is the scaled matrix: at every entry, `x (r, q)` times the absolute value of `d q`. -/
theorem ref_eq_scaled (x : (⟨S65536x1024, .f32⟩ : BufTy).Contents (Elt Ideal))
    (d : (⟨S1024, .f32⟩ : BufTy).Contents (Elt Ideal)) :
    val_main_v3 (F := Ideal) x d = scaled x d := by
  funext i
  rw [val_main_v3_apply, val_main_v2_apply, val_main_v1_apply, val_main_v0_apply, col_of_broadcasts]
  rfl

end Cert.DiagScale.Ref

end
-- ==== Proof.KernelValue.lean ====
/-
  The kernel, read entry by entry.

  The kernel walks the 65536 rows of `x` in 32 tiles of 2048 rows. At tile `t` it loads rows
  `2048 t … 2048 t + 2047` of `x` (all 1024 columns) and the vector `d`, which the host has laid out as a
  single row of 1024 entries; it takes the absolute value of that row, repeats it down the 2048 rows of the tile,
  multiplies entry by entry, and writes the tile back to the same rows of the result.

  So entry `(p, q)` of tile `t` is `x (2048 t + p, q) * |d q|`, which is the specification's `scaled` read at
  row `2048 t + p`, column `q`: each written tile is a tile of `scaled`. Every row `r` lies in exactly the tile
  `r / 2048`, so the tiles cover the result, and the result array ends holding `scaled x d`.
-/
import proofs.«428894_j26456998543635_3_alg».proof.Proof.Gen.KernelIdeal.Value
import proofs.«428894_j26456998543635_3_alg».proof.Proof.Spec
import Idealize.ShloMosaic.Lib.Pipeline.Value
import Idealize.ShloMosaic.Lib.ValueIdx
import Idealize.ShloMosaic.Lib.StableHlo.Run

set_option maxRecDepth 16384

noncomputable section

namespace Cert.DiagScale.Kern

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at row 0, column 0 of their tiles. -/
theorem zero_off : (![0, 0] : Fin 2 → Nat) = fun _ => 0 := funext fun a => by fin_cases a <;> rfl

/-! ## One tile -/

/-- What the body leaves in the output tile, from the loaded tile `x0` of the matrix and the loaded row `x1`:
    entry `y` is `x0 y` times the absolute value of the row's entry in `y`'s column. -/
theorem tile_apply (x0 : FVec Ideal S2048x1024 .f32) (x1 : FVec Ideal S1x1024 .f32) (y : S2048x1024.Idx) :
    (out0_2 (F := Ideal) x0 x1 y : Ideal .f32)
      = FloatOps.mulf (x0 y) (FloatOps.absf (x1 (ix2 (n0 := 1) (n1 := 1024) 0 (y 1)))) := by
  unfold out0_2
  rw [Value.canon2_eq]
  simp only [View.ld_unit_zero (S := S2048x1024) zero_off, View.ld_unit_zero (S := S1x1024) zero_off]
  have e0 : Value.ix2_0 y = y :=
    funext fun a => Fin.ext (by match a with | ⟨0, _⟩ => rfl | ⟨1, _⟩ => rfl)
  have e1 : Value.ix2_1 y = ix2 (n0 := 1) (n1 := 1024) 0 (y 1) :=
    funext fun a => Fin.ext (by match a with | ⟨0, _⟩ => rfl | ⟨1, _⟩ => rfl)
  show (FloatOps.mulf (x0 (Value.ix2_0 y)) (FloatOps.absf (x1 (Value.ix2_1 y))) : Ideal .f32) = _
  rw [e0, e1]

/-! ## The row the host lays out -/

/-- Before the tiles run, the host reshapes the vector into one row of 1024 entries. -/
theorem row_eq (c : Dev nD) :
    (V m c main_v0 : S1x1024.Idx → EReal)
      = shapeCast S1x1024 (m ((c : Thread nD τ).loc main_arg1)) shapeCasts_S1024_S1x1024 := by
  dsimp only [V, hostOps0]; after_results; rfl

/-- A vector of 1024 entries laid out as one row: entry `(0, q)` of the row is entry `q` of the vector
    (both sit at position `q` when the entries are counted row by row). -/
theorem cast_row_apply (d : FVec Ideal S1024 .f32) (j : S1x1024.Idx) :
    shapeCast S1x1024 d shapeCasts_S1024_S1x1024 j = d (ix1 (n := 1024) (j 1)) := by
  refine shapeCast_apply d _ j _ ?_
  have h0 : (j 0).val < 1 := (j 0).isLt
  rw [Shape.rowMajor_val_one, Shape.rowMajor_val_two]
  show (j 1).val = (j 0).val * 1024 + (j 1).val
  omega

/-- Entry `(0, q)` of the row the tiles read is entry `q` of the vector as launched. -/
theorem row_apply (c : Dev nD) (j : S1x1024.Idx) :
    (V m c main_v0 : S1x1024.Idx → EReal) j = m ((c : Thread nD τ).loc main_arg1) (ix1 (n := 1024) (j 1)) := by
  rw [row_eq]
  exact cast_row_apply _ j

/-! ## Which rows and columns each tile reads and writes -/

/-- Over the 32 tiles: the matrix's tile and the result's tile sit at the same tile row; neither moves along the
    columns; the row of `d` is always the one block there is. -/
theorem tile_positions : ∀ t : Fin cfg0.N, win0_0.index t (0 : Fin 2) = win0_2.index t (0 : Fin 2)
    ∧ win0_0.index t (1 : Fin 2) = 0
    ∧ win0_2.index t (1 : Fin 2) = 0
    ∧ win0_1.index t (0 : Fin 2) = 0
    ∧ win0_1.index t (1 : Fin 2) = 0 :=
  (by decide +kernel : ∀ t : Fin grid0.N, _)

/-- Every one of the 32 tile rows is some tile's. -/
theorem tile_onto : ∀ q : Fin 32, ∃ t : Fin cfg0.N, win0_2.index t = ![q.val, 0] :=
  (by decide +kernel : ∀ q : Fin 32, ∃ t : Fin grid0.N, win0_2.index t = ![q.val, 0])

/-! ## A written tile is a tile of the scaled matrix -/

/-- What tile `t` writes back is tile `t` of `scaled x d`. -/
theorem flushed_eq (c : Dev nD) (t : Fin cfg0.N) :
    (dats m 0 c).flushed 2 t
      = ((cfg0.win 2).blk t).view.read (Elt Ideal)
          (scaled (V m c main_arg0) (m ((c : Thread nD τ).loc main_arg1))) := by
  rw [Value.flushed2]
  obtain ⟨e0, e1, e2, e3, e4⟩ := tile_positions t
  funext j
  show out0_2 (iblk m c 0 t) (iblk m c 1 t) j
      = scaled (V m c main_arg0) (m ((c : Thread nD τ).loc main_arg1)) (((cfg0.win 2).blk t).view.emb j)
  refine (tile_apply (iblk m c 0 t) (iblk m c 1 t) j).trans ?_
  show FloatOps.mulf (F := Ideal) (φ := .f32) (V m c main_arg0 (((cfg0.win 0).blk t).view.emb j))
        (FloatOps.absf (F := Ideal) (φ := .f32) ((V m c main_v0 : S1x1024.Idx → EReal)
          (((cfg0.win 1).blk t).view.emb (ix2 (n0 := 1) (n1 := 1024) 0 (j 1)))))
      = FloatOps.mulf (F := Ideal) (φ := .f32) (V m c main_arg0 (((cfg0.win 2).blk t).view.emb j))
        (FloatOps.absf (F := Ideal) (φ := .f32)
          ((m ((c : Thread nD τ).loc main_arg1) : S1024.Idx → EReal) (col (((cfg0.win 2).blk t).view.emb j))))
  rw [row_apply]
  have hrow : ((cfg0.win 0).blk t).view.emb j = ((cfg0.win 2).blk t).view.emb j := by
    funext a; apply Fin.ext
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 1024 + 1 * (j 1).val = win0_2.index t (1 : Fin 2) * 1024 + 1 * (j 1).val
      omega
  have hcol : ix1 (n := 1024) ((((cfg0.win 1).blk t).view.emb (ix2 (n0 := 1) (n1 := 1024) 0 (j 1))) 1)
      = col (((cfg0.win 2).blk t).view.emb j) := by
    funext a; apply Fin.ext
    match a with
    | ⟨0, _⟩ =>
      show win0_1.index t (1 : Fin 2) * 1024 + 1 * (j 1).val = win0_2.index t (1 : Fin 2) * 1024 + 1 * (j 1).val
      omega
  rw [hrow, hcol]

/-! ## The tiles cover the result -/

/-- A row and column lie in tile `t` exactly when the row is among the tile's 2048 rows (and the column among all 1024). -/
theorem mem_tile (t : Fin cfg0.N) (i : S65536x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v1).slice (win0_2.rect t)).set ↔ _
  rw [View.set_slice_whole, Rect.mem_set_unit]
  exact Iff.rfl

/-- Row `r` lies in tile `r / 2048`, and every tile is written back. -/
theorem covered (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  obtain ⟨t, ht⟩ := tile_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_tile]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-! ## The whole result -/

/-- After all 32 tiles the result array is `scaled x d` of the arguments as launched. -/
theorem final (c : Dev nD) :
    (dats m 0 c).arrAt 2 cfg0.N
      = scaled (m ((c : Thread nD τ).loc main_arg0)) (m ((c : Thread nD τ).loc main_arg1)) :=
  ((dats m 0 c).arrAt_eq_of_cover 2 (scaled (V m c main_arg0) (m ((c : Thread nD τ).loc main_arg1)))
      (fun t _ => flushed_eq m c t) covered).trans
    (congrArg (fun a => scaled a (m ((c : Thread nD τ).loc main_arg1))) (V_main_arg0 m c))

/-- Every weakly fair execution of the kernel ends with the result at `scaled x d` and the arguments unchanged. -/
theorem run : θ_run defs (onTc (τ := τ) (main (F := Ideal))) ⟨m, fun _ => 0, ρ⟩ fun r => ∀ c : Dev nD,
      r.2.mem ((c : Thread nD τ).loc main_v1)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.DiagScale.Kern

end
-- ==== Proof.lean ====
/-
  Scaling a matrix on the right by a diagonal matrix of absolute values.

  The kernel and the reference both compute, from a matrix `x` of 65536 rows and 1024 columns and a vector `d` of
  length 1024, the matrix whose entry `(r, q)` is `x (r, q) * |d q|` (`Spec.lean`: `scaled`).

  * The reference takes `|d|`, repeats it down every row, and multiplies entry by entry (`RefValue.lean`).
  * The kernel handles 2048 rows at a time: it multiplies each tile of `x` by the row `|d|` repeated down the tile
    and writes the tile back in place; the 32 tiles cover all 65536 rows (`KernelValue.lean`).

  Both products have the same two factors in the same order at every entry, so the results are equal as extended
  reals for any inputs at all; no property of the inputs is used. The kernel's idealization rewrote nothing, so
  there is nothing to preserve. The three programs terminate with their arguments unchanged: the two kernels by
  their frames, the reference by its run.
-/
import proofs.«428894_j26456998543635_3_alg».proof.Defs
import proofs.«428894_j26456998543635_3_alg».proof.Proof.Gen.Kernel
import proofs.«428894_j26456998543635_3_alg».proof.Proof.Gen.Kernel.Skeleton
import proofs.«428894_j26456998543635_3_alg».proof.Proof.Gen.Kernel.Launch
import proofs.«428894_j26456998543635_3_alg».proof.Proof.Gen.Kernel.Points
import proofs.«428894_j26456998543635_3_alg».proof.Proof.Gen.Kernel.Frame
import proofs.«428894_j26456998543635_3_alg».proof.Proof.Gen.KernelIdeal
import proofs.«428894_j26456998543635_3_alg».proof.Proof.Gen.KernelIdeal.Skeleton
import proofs.«428894_j26456998543635_3_alg».proof.Proof.Gen.KernelIdeal.Launch
import proofs.«428894_j26456998543635_3_alg».proof.Proof.Gen.KernelIdeal.Points
import proofs.«428894_j26456998543635_3_alg».proof.Proof.Gen.KernelIdeal.Frame
import proofs.«428894_j26456998543635_3_alg».proof.Proof.Gen.KernelIdeal.Value
import proofs.«428894_j26456998543635_3_alg».proof.Proof.Gen.ReferenceIdeal
import proofs.«428894_j26456998543635_3_alg».proof.Proof.Gen.ReferenceIdeal.Run
import proofs.«428894_j26456998543635_3_alg».proof.Proof.Gen.ReferenceIdeal.Read
import proofs.«428894_j26456998543635_3_alg».proof.Proof.Gen.Pre_finite_inputs
import proofs.«428894_j26456998543635_3_alg».proof.Proof.Spec
import proofs.«428894_j26456998543635_3_alg».proof.Proof.RefValue
import proofs.«428894_j26456998543635_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves `x` and `d` as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's four host operations run to the end and write only their own results. -/
theorem frame_reference : Cert.frame_ReferenceIdeal := fun m ρ _ =>
  (θ_run Cert.ReferenceIdeal.defs _ _).mono (fun _ h c => (h c).2) (Cert.ReferenceIdeal.Value.run (F := Ideal) m ρ)

/-- Kernel and reference, from memories that agree on `x` and `d`, both end with the result array at
    `scaled x d`: the kernel tile by tile, the reference in one product. -/
theorem algebraic : Cert.algebraic_KernelIdeal_ReferenceIdeal := by
  intro m ρ m' ρ' _ hagree
  refine ⟨_, Cert.DiagScale.Kern.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v3_eq]
  exact Cert.DiagScale.Ref.ref_eq_scaled _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
